-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BlockProducts.lean ====
/-
  The kernel body's two matrix products, read at an index on the extended reals.

  The body multiplies a [1024, 64] block of (scaled) query rows with a [2048, 64] block of key rows, contracting the
  feature axis of BOTH — entry (r, k) is `∑ e, A (r, e) · B (k, e)`, the scores of query row r against every key —, and
  later the [1024, 2048] block of weights with the [2048, 64] block of value rows, contracting the key position — entry
  (r, d) is `∑ k, P (r, k) · V (k, d)`. Each product goes into a zero accumulator, so it is just that sum; the
  contraction index, a one-axis shape's index, is re-indexed by its one coordinate.
-/
import proofs.«417406_j39676907882670_3_alg».proof.Proof.Gen.KernelIdeal
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## Query rows against key rows -/

/-- The left operand is read at the result's row … -/
theorem scores_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
/-- … and the contracted feature; -/
theorem scores_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
/-- the right operand at the result's COLUMN as its row … -/
theorem scores_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
/-- … and the same contracted feature. -/
theorem scores_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry (r, k) of the first product is the contraction of row r of the left block with row k of the right block. -/
theorem scores_apply (A : FVec Ideal S1024x64 .bf16) (B : FVec Ideal S2048x64 .bf16) (r : Fin 1024) (k : Fin 2048) :
    matmul dot_S1024x64_S2048x64_S1024x2048_1_1_0_0_n_n none A B (constant S1024x2048 .f32 0x00000000#32) (ix2 r k)
      = ∑ e : Fin 64, A (ix2 r e) * B (ix2 k e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have he := contrEquiv1_symm_val dot_S1024x64_S2048x64_S1024x2048_1_1_0_0_n_n 64 rfl rfl e
  have el : dot_S1024x64_S2048x64_S1024x2048_1_1_0_0_n_n.lhsIdx (ix2 r k) ((contrEquiv1 dot_S1024x64_S2048x64_S1024x2048_1_1_0_0_n_n 64 rfl rfl).symm e) = ix2 r e := funext fun a => Fin.ext (by
    match a with
    | ⟨0, _⟩ => exact scores_lhs_0 _ _
    | ⟨1, _⟩ => exact (scores_lhs_1 _ _).trans he)
  have er : dot_S1024x64_S2048x64_S1024x2048_1_1_0_0_n_n.rhsIdx (ix2 r k) ((contrEquiv1 dot_S1024x64_S2048x64_S1024x2048_1_1_0_0_n_n 64 rfl rfl).symm e) = ix2 k e := funext fun a => Fin.ext (by
    match a with
    | ⟨0, _⟩ => exact scores_rhs_0 _ _
    | ⟨1, _⟩ => exact (scores_rhs_1 _ _).trans he)
  rw [el, er]

/-! ## Weights against value rows -/

/-- The left operand is read at the result's row … -/
theorem mix_lhs_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
/-- … and the contracted key position; -/
theorem mix_lhs_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
/-- the right operand at that key position … -/
theorem mix_rhs_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
/-- … and the result's column. -/
theorem mix_rhs_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Entry (r, d) of the second product is the sum over the key positions of weight (r, k) times value (k, d). -/
theorem mix_apply (W : FVec Ideal S1024x2048 .bf16) (V : FVec Ideal S2048x64 .bf16) (r : Fin 1024) (d : Fin 64) :
    matmul dot_S1024x2048_S2048x64_S1024x64_1_0_0_1_n_n none W V (constant S1024x64 .f32 0x00000000#32) (ix2 r d)
      = ∑ k : Fin 2048, W (ix2 r k) * V (ix2 k d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact mix_lhs_0 _ _
    | ⟨1, _⟩ => exact (mix_lhs_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (mix_rhs_0 _ _).trans hk
    | ⟨1, _⟩ => exact mix_rhs_1 _ _)
  rw [el, er]

end Cert.KernelIdeal.BlockValue

end
-- ==== Proof.AttentionSpec.lean ====
/-
  Scaled dot-product attention on the extended reals, stated once and apart from any program.

  For ONE query row `q` (features `ι`), keys `K` (positions `κ`, features `ι`) and one column `v` of the values
  (positions `κ`), attention is a softmax-weighted average of `v`: with scores `s k`, weights
  `w k = exp (s k − max s)` and `l = ∑ k, w k`, the result is `∑ k, (w k / l) · v k`.

  Two arrangements of that one number are written down here.
  • The score: the query row scaled entry by entry by a constant `c` and then contracted with the key row,
    `∑ e, (q e · c) · K k e`, against the plain contraction divided by a constant `n`, `(∑ e, q e · K k e) / n`.
  • The normalisation: the weighted sum taken first and divided by `l` once, `(∑ k, w k · v k) / l`, against each
    weight divided by `l` before it multiplies its value, `∑ k, (w k / l) · v k`.
  On real entries, with `c = 1/n`, they agree (Proof/AttentionLaw.lean): the first pair by distributivity, the second
  because `l` is a real number not below `1` — the largest score's own weight is `exp 0`.

  The whole-array functions `attnScaledQuery` and `attnDivided` read those rows out of arrays of shape
  [batch, head, position, feature]: entry `(b, h, p, d)` is the row result of query row `(b, h, p, ·)`, the keys
  `(b, h, ·, ·)` and column `d` of the values `(b, h, ·, ·)`.
-/
import Idealize.ShloMosaic.PureOps.Ideal
import Idealize.ShloMosaic.Lib.ValueIdx

noncomputable section

namespace Cert.Attention

open Idealize.ShloMosaic Idealize.ShloMosaic.ValueIdx

variable {ι κ : Type} [Fintype ι] [Fintype κ]

/-- The score of key `k` with the query row scaled first: `∑ e, (q e · c) · K k e`. -/
def scoreScaledQuery (c : EReal) (q : ι → EReal) (K : κ → ι → EReal) (k : κ) : EReal :=
  ∑ e, (q e * c) * K k e

/-- The score of key `k` with the contraction divided afterwards: `(∑ e, q e · K k e) / n`. -/
def scoreDivided (n : EReal) (q : ι → EReal) (K : κ → ι → EReal) (k : κ) : EReal :=
  Ideal.div (∑ e, q e * K k e) n

/-- The largest score of a row, taken from `⊥` upward. -/
def rowMax (s : κ → EReal) : EReal := Finset.univ.fold max ⊥ s

/-- The unnormalised softmax weight of key `k`: `exp (s k − max s)`. -/
def weight (s : κ → EReal) (k : κ) : EReal := Ideal.exp (s k - rowMax s)

/-- The weighted sum of the values divided ONCE by the sum of the weights. -/
def normalizeLast (s v : κ → EReal) : EReal :=
  Ideal.div (∑ k, weight s k * v k) (∑ k, weight s k)

/-- Each weight divided by the sum of the weights BEFORE it multiplies its value. -/
def normalizeFirst (s v : κ → EReal) : EReal :=
  ∑ k, Ideal.div (weight s k) (∑ k', weight s k') * v k

/-- Arrays of shape [batch, head, position, feature]. -/
abbrev Sbhpf : Shape := ⟨4, ![4, 16, 2048, 64]⟩

/-- Attention with the query scaled by `c` and the normalisation last, entry by entry. -/
def attnScaledQuery (c : EReal) (x y z : Sbhpf.Idx → EReal) : Sbhpf.Idx → EReal := fun i =>
  normalizeLast
    (scoreScaledQuery c (fun e : Fin 64 => x (ix4 (i 0) (i 1) (i 2) e)) (fun (k : Fin 2048) (e : Fin 64) => y (ix4 (i 0) (i 1) k e)))
    (fun k : Fin 2048 => z (ix4 (i 0) (i 1) k (i 3)))

/-- Attention with the scores divided by `n` and the normalisation first, entry by entry. -/
def attnDivided (n : EReal) (x y z : Sbhpf.Idx → EReal) : Sbhpf.Idx → EReal := fun i =>
  normalizeFirst
    (scoreDivided n (fun e : Fin 64 => x (ix4 (i 0) (i 1) (i 2) e)) (fun (k : Fin 2048) (e : Fin 64) => y (ix4 (i 0) (i 1) k e)))
    (fun k : Fin 2048 => z (ix4 (i 0) (i 1) k (i 3)))

end Cert.Attention

end
-- ==== Proof.AttentionConsts.lean ====
/-
  The float literals of the two programs, read on the extended reals: the kernel's query scale `0.125` is the real
  `1/8`, the reference's divisor `8.0` is the real `8`, and the pattern both programs start their row maximum from is
  `-∞`, the bottom of the order. (The zero pattern both start their sums from is the library's `Ideal.ofBits_zero_f32`.)
-/
import Idealize.ShloMosaic.PureOps.Ideal

noncomputable section

namespace Cert.Attention

open Idealize.ShloMosaic

/-- `0.125` denotes `1/8`. -/
theorem ofBits_eighth : Ideal.ofBits .f32 0x3E000000#32 = ((1 / 8 : ℝ) : EReal) := by
  simp [Ideal.ofBits, Ideal.ieee, -EReal.coe_mul]; norm_num

/-- `8.0` denotes `8`. -/
theorem ofBits_eight : Ideal.ofBits .f32 0x41000000#32 = ((8 : ℝ) : EReal) := by
  simp [Ideal.ofBits, Ideal.ieee, -EReal.coe_mul]; norm_num

/-- The negative infinity's pattern denotes `⊥`. -/
theorem ofBits_neg_inf : Ideal.ofBits .f32 0xFF800000#32 = (⊥ : EReal) := by
  simp [Ideal.ofBits, Ideal.ieee]

end Cert.Attention

end
-- ==== Proof.BlockRow.lean ====
/-
  What the kernel body stores, read at one entry of its output block.

  The body sees a [1, 1024, 64] block of query rows, and the whole [1, 2048, 64] blocks of key rows and of value rows of
  the same head. It scales the query rows by the literal `0.125`, takes every query row's scores against all keys, each
  row's largest score, the weights `exp (score − largest)`, each row's sum of weights, the weighted sum of the value rows,
  and divides the last by the sum of weights. So entry (0, r, d) of what it stores is, in Proof/AttentionSpec.lean's
  words, `normalizeLast` of the scores of query row r with the query scaled first, over column d of the values.

  The intermediate blocks are named here one by one, the body's stored value is their composition by unfolding, and
  each is read at an index by a short lemma: a change of float format is the identity, a cast that drops or adds the
  block's leading unit axis keeps the other coordinates, a row's reduction is a fold or a sum over the key positions, a
  reduced column put back ([1024] to [1024, 1] and broadcast along the row) is constant along the row.
-/
import proofs.«417406_j39676907882670_3_alg».proof.Proof.Gen.KernelIdeal.Skeleton
import proofs.«417406_j39676907882670_3_alg».proof.Proof.BlockProducts
import proofs.«417406_j39676907882670_3_alg».proof.Proof.AttentionSpec
import proofs.«417406_j39676907882670_3_alg».proof.Proof.AttentionConsts
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.Attention

/-! ## Reductions along a row, and a reduced column put back -/

/-- Inserting key position k into the row index (r) gives the entry (r, k). -/
theorem lift_row (h : S1024x2048.Reduces [1] S1024) (r : Fin 1024) (k : Fin 2048) :
    h.lift (ix1 r) k = ix2 r k :=
  funext fun a => Fin.ext (by match a with | ⟨0, _⟩ => rfl | ⟨1, _⟩ => rfl)

/-- A row's maximum from the negative infinity's pattern is the row's `rowMax`. -/
theorem rowMax_apply (s : FVec Ideal S1024x2048 .f32) (h : S1024x2048.Reduces [1] S1024) (hφ : FKind.Formats .f32)
    (hacc : (0xFF800000#32 : BitVec 32) = FKind.maximumf.neutral .f32 hφ) (r : Fin 1024) :
    multiReduction .maximumf [1] S1024 s 0xFF800000#32 h hφ hacc (ix1 r) = rowMax (fun k : Fin 2048 => s (ix2 r k)) := by
  rw [Ideal.multiReduction_maximumf_single]
  unfold rowMax
  rw [show FloatOps.ofBits (F := Ideal) .f32 0xFF800000#32 = (⊥ : EReal) from ofBits_neg_inf]
  exact congrArg (Finset.univ.fold max (⊥ : EReal)) (funext fun k => congrArg s (lift_row h r k))

/-- A row's sum from zero is the sum over the key positions. -/
theorem rowSum_apply (p : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 p 0x00000000#32 h hφ hacc (ix1 r) = ∑ k : Fin 2048, p (ix2 r k) := by
  rw [Ideal.multiReduction_add_single]
  exact Finset.sum_congr rfl fun k _ => congrArg p (lift_row h r k)

/-- A reduced column cast to [1024, 1] and broadcast along rows of 2048 is, at (r, k), the column's entry r. -/
theorem column_along_2048 (v : FVec Ideal S1024 .f32) (h1 : S1024.ShapeCasts S1024x1) (h2 : S1024x1.Broadcasts S1024x2048)
    (r : Fin 1024) (k : Fin 2048) :
    broadcastTo S1024x2048 (shapeCast S1024x1 v h1) h2 (ix2 r k) = v (ix1 r) := by
  rw [broadcastTo_apply _ h2 (ix2 r k) (ix2 r (0 : Fin 1)) (fun a => match a with
    | ⟨0, _⟩ => by show r.val = if (1024 : Nat) = 1 then 0 else r.val; rw [if_neg (by decide)]
    | ⟨1, _⟩ => by show 0 = if (1 : Nat) = 1 then 0 else k.val; rw [if_pos rfl])]
  exact shapeCast_apply v h1 (ix2 r (0 : Fin 1)) (ix1 r) (by
    rw [Shape.rowMajor_val_one, Shape.rowMajor_val_two]
    show r.val = r.val * 1 + 0
    omega)

/-- The same along rows of 64. -/
theorem column_along_64 (v : FVec Ideal S1024 .f32) (h1 : S1024.ShapeCasts S1024x1) (h2 : S1024x1.Broadcasts S1024x64)
    (r : Fin 1024) (d : Fin 64) :
    broadcastTo S1024x64 (shapeCast S1024x1 v h1) h2 (ix2 r d) = v (ix1 r) := by
  rw [broadcastTo_apply _ h2 (ix2 r d) (ix2 r (0 : Fin 1)) (fun a => match a with
    | ⟨0, _⟩ => by show r.val = if (1024 : Nat) = 1 then 0 else r.val; rw [if_neg (by decide)]
    | ⟨1, _⟩ => by show 0 = if (1 : Nat) = 1 then 0 else d.val; rw [if_pos rfl])]
  exact shapeCast_apply v h1 (ix2 r (0 : Fin 1)) (ix1 r) (by
    rw [Shape.rowMajor_val_one, Shape.rowMajor_val_two]
    show r.val = r.val * 1 + 0
    omega)

/-! ## The body's intermediate blocks -/

/-- The query rows, scaled by the literal. -/
def scaledQueries (x0 : Vec Ideal S1x1024x64 .f32) : FVec Ideal S1024x64 .bf16 :=
  truncf .bf16 (mulf (shapeCast S1024x64 x0 shapeCasts_S1x1024x64_S1024x64) (broadcast S1024x64 (Scalar.ofBits .f32 0x3E000000#32))) bitsLt_bf16_f32

/-- A [1, 2048, 64] block as 2048 rows (the keys, and the values). -/
def rows2048 (x : Vec Ideal S1x2048x64 .f32) : FVec Ideal S2048x64 .bf16 :=
  truncf .bf16 (shapeCast S2048x64 x shapeCasts_S1x2048x64_S2048x64) bitsLt_bf16_f32

/-- Every query row's scores against every key row. -/
def scoresBlock (x0 : Vec Ideal S1x1024x64 .f32) (x1 : Vec Ideal S1x2048x64 .f32) : FVec Ideal S1024x2048 .f32 :=
  matmul dot_S1024x64_S2048x64_S1024x2048_1_1_0_0_n_n none (scaledQueries x0) (rows2048 x1) (constant S1024x2048 .f32 0x00000000#32)

/-- The weights: `exp` of each score less its row's largest. -/
def weightsBlock (x0 : Vec Ideal S1x1024x64 .f32) (x1 : Vec Ideal S1x2048x64 .f32) : FVec Ideal S1024x2048 .f32 :=
  exp (subf (scoresBlock x0 x1)
    (broadcastTo S1024x2048 (shapeCast S1024x1 (multiReduction .maximumf [1] S1024 (scoresBlock x0 x1) 0xFF800000#32 reduces_S1024x2048_S1024 (.inl rfl) rfl) shapeCasts_S1024_S1024x1) broadcasts_S1024x1_S1024x2048))

/-- What the body stores is the weighted sum of the value rows divided by each row's sum of weights. -/
theorem pay_eq (x0 : Vec Ideal S1x1024x64 .f32) (x1 x2 : Vec Ideal S1x2048x64 .f32) :
    k0_pay1 (F := Ideal) x0 x1 x2
      = shapeCast S1x1024x64
          (divf (matmul dot_S1024x2048_S2048x64_S1024x64_1_0_0_1_n_n none (truncf .bf16 (weightsBlock x0 x1) bitsLt_bf16_f32) (rows2048 x2) (constant S1024x64 .f32 0x00000000#32))
            (broadcastTo S1024x64 (shapeCast S1024x1 (multiReduction .add [1] S1024 (weightsBlock x0 x1) 0x00000000#32 reduces_S1024x2048_S1024 (.inl rfl) rfl) shapeCasts_S1024_S1024x1) broadcasts_S1024x1_S1024x64))
          shapeCasts_S1024x64_S1x1024x64 := rfl

/-! ## Each block at an index -/

theorem scaledQueries_apply (x0 : Vec Ideal S1x1024x64 .f32) (r : Fin 1024) (e : Fin 64) :
    scaledQueries x0 (ix2 r e) = x0 (ix3 (0 : Fin 1) r e) * Ideal.ofBits .f32 0x3E000000#32 := by
  unfold scaledQueries
  show shapeCast S1024x64 x0 shapeCasts_S1x1024x64_S1024x64 (ix2 r e) * Ideal.ofBits .f32 0x3E000000#32 = _
  rw [shapeCast_1ab_ab_apply]

theorem rows2048_apply (x : Vec Ideal S1x2048x64 .f32) (k : Fin 2048) (e : Fin 64) :
    rows2048 x (ix2 k e) = x (ix3 (0 : Fin 1) k e) := by
  unfold rows2048
  show shapeCast S2048x64 x shapeCasts_S1x2048x64_S2048x64 (ix2 k e) = _
  rw [shapeCast_1ab_ab_apply]

/-- A score is the specification's score with the query scaled first. -/
theorem scoresBlock_apply (x0 : Vec Ideal S1x1024x64 .f32) (x1 : Vec Ideal S1x2048x64 .f32) (r : Fin 1024) (k : Fin 2048) :
    scoresBlock x0 x1 (ix2 r k)
      = scoreScaledQuery (Ideal.ofBits .f32 0x3E000000#32) (fun e : Fin 64 => x0 (ix3 (0 : Fin 1) r e))
          (fun (k : Fin 2048) (e : Fin 64) => x1 (ix3 (0 : Fin 1) k e)) k := by
  unfold scoresBlock scoreScaledQuery
  rw [scores_apply]
  exact Finset.sum_congr rfl fun e _ => by rw [scaledQueries_apply, rows2048_apply]

/-- A weight is the specification's weight of that row of scores. -/
theorem weightsBlock_apply (x0 : Vec Ideal S1x1024x64 .f32) (x1 : Vec Ideal S1x2048x64 .f32) (r : Fin 1024) (k : Fin 2048) :
    weightsBlock x0 x1 (ix2 r k)
      = weight (scoreScaledQuery (Ideal.ofBits .f32 0x3E000000#32) (fun e : Fin 64 => x0 (ix3 (0 : Fin 1) r e))
          (fun (k : Fin 2048) (e : Fin 64) => x1 (ix3 (0 : Fin 1) k e))) k := by
  unfold weightsBlock weight
  show Ideal.exp (scoresBlock x0 x1 (ix2 r k) - broadcastTo S1024x2048 _ broadcasts_S1024x1_S1024x2048 (ix2 r k)) = _
  rw [column_along_2048]
  refine congrArg Ideal.exp (congr (congrArg HSub.hSub (scoresBlock_apply x0 x1 r k)) ?_)
  exact (rowMax_apply (scoresBlock x0 x1) reduces_S1024x2048_S1024 (.inl rfl) rfl r).trans
    (congrArg rowMax (funext fun k' => scoresBlock_apply x0 x1 r k'))

/-- THE STORED BLOCK at (0, r, d): attention of query row r over the block's keys and column d of its values, the query
    scaled first and the normalisation last. -/
theorem pay_apply (x0 : Vec Ideal S1x1024x64 .f32) (x1 x2 : Vec Ideal S1x2048x64 .f32) (u : Fin 1) (r : Fin 1024) (d : Fin 64) :
    k0_pay1 (F := Ideal) x0 x1 x2 (ix3 u r d)
      = normalizeLast
          (scoreScaledQuery (Ideal.ofBits .f32 0x3E000000#32) (fun e : Fin 64 => x0 (ix3 (0 : Fin 1) r e))
            (fun (k : Fin 2048) (e : Fin 64) => x1 (ix3 (0 : Fin 1) k e)))
          (fun k : Fin 2048 => x2 (ix3 (0 : Fin 1) k d)) := by
  rw [pay_eq, shapeCast_ab_1ab_apply]
  unfold normalizeLast
  show Ideal.div (matmul dot_S1024x2048_S2048x64_S1024x64_1_0_0_1_n_n none _ (rows2048 x2) (constant S1024x64 .f32 0x00000000#32) (ix2 r d))
      (broadcastTo S1024x64 _ broadcasts_S1024x1_S1024x64 (ix2 r d)) = _
  rw [mix_apply, column_along_64]
  refine congr (congrArg Ideal.div ?_) ?_
  · exact Finset.sum_congr rfl fun k _ => by
      show weightsBlock x0 x1 (ix2 r k) * rows2048 x2 (ix2 k d) = _
      rw [weightsBlock_apply, rows2048_apply]
  · exact (rowSum_apply (weightsBlock x0 x1) reduces_S1024x2048_S1024 (.inl rfl) rfl r).trans
      (Finset.sum_congr rfl fun k _ => weightsBlock_apply x0 x1 r k)

end Cert.KernelIdeal.BlockValue

end
-- ==== Proof.ArrayValue.lean ====
/-
  From the block each grid point stores to the kernel program's result array.

  The program flattens batch and head into one axis of 64 heads ([4, 16, 2048, 64] to [64, 2048, 64], row-major: head
  `16 b + h`), runs the kernel on a grid of 64 heads times 2 halves of the query positions, and unflattens the result.
  Grid point (head g, half s) is handed query rows `1024 s … 1024 s + 1023` of head g, and ALL 2048 key rows and value
  rows of head g; it stores the same rows of the result. So what a point stores is its block of ONE whole-array
  function, attention over the flattened arrays (`headAttn`); the 128 blocks tile the [64, 2048, 64] result, so after the
  run the array IS that function; and read through the two reshapes it is Proof/AttentionSpec.lean's `attnScaledQuery`
  of the three argument arrays.

  The steps from "what a point writes back" to "the array after the run" (the decided facts about the printed index
  maps, a block's coordinate as index × size + offset, membership in a block, the cover) are the ones the library's
  value layer (Lib/Pipeline/Value.lean) is built for.
-/
import proofs.«417406_j39676907882670_3_alg».proof.Proof.Gen.KernelIdeal.Frame
import proofs.«417406_j39676907882670_3_alg».proof.Proof.BlockRow
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Attention Cert.KernelIdeal.BlockValue

variable (m : (ℓ : Loc nD τ sig) → Buf (Elt Ideal) ℓ) (ρ : Dev nD → PrngReg)

theorem offset_zero : (![0, 0, 0] : Fin 3 → Nat) = fun _ => 0 := funext fun a => by fin_cases a <;> rfl

/-! ## One whole-array function over the flattened arrays -/

/-- Attention over [head, position, feature] arrays: entry (g, p, d) is the row result of query row (g, p, ·), the keys
    (g, ·, ·) and column d of the values (g, ·, ·), the query scaled first and the normalisation last. -/
def headAttn (a0 a1 a2 : S64x2048x64.Idx → EReal) : S64x2048x64.Idx → EReal := fun i =>
  normalizeLast
    (scoreScaledQuery (Ideal.ofBits .f32 0x3E000000#32) (fun e : Fin 64 => a0 (ix3 (i 0) (i 1) e)) (fun (k : Fin 2048) (e : Fin 64) => a1 (ix3 (i 0) k e)))
    (fun k : Fin 2048 => a2 (ix3 (i 0) k (i 2)))

/-- Entry j of a stored block is `headAttn` at array index i once the block's rows are the arrays' rows there: query row
    `j 1` of the block is row `i 1` of head `i 0`, the key and value blocks are that head's rows, the column is the same. -/
theorem stored_eq_headAttn (a0 a1 a2 : S64x2048x64.Idx → EReal) (x0 : Vec Ideal S1x1024x64 .f32) (x1 x2 : Vec Ideal S1x2048x64 .f32)
    (j : S1x1024x64.Idx) (i : S64x2048x64.Idx)
    (h0 : ∀ e : Fin 64, x0 (ix3 (0 : Fin 1) (j 1) e) = a0 (ix3 (i 0) (i 1) e))
    (h1 : ∀ (k : Fin 2048) (e : Fin 64), x1 (ix3 (0 : Fin 1) k e) = a1 (ix3 (i 0) k e))
    (h2 : ∀ k : Fin 2048, x2 (ix3 (0 : Fin 1) k (j 2)) = a2 (ix3 (i 0) k (i 2))) :
    k0_pay1 (F := Ideal) x0 x1 x2 j = headAttn a0 a1 a2 i := by
  refine (congrArg (k0_pay1 (F := Ideal) x0 x1 x2) (eq_ix3 j)).trans ((pay_apply x0 x1 x2 (j 0) (j 1) (j 2)).trans ?_)
  exact congr
    (congrArg normalizeLast
      (congr (congrArg (scoreScaledQuery (Ideal.ofBits .f32 0x3E000000#32)) (funext h0)) (funext fun k => funext (h1 k))))
    (funext h2)

/-! ## The printed index maps, decided over the 128 grid points -/

/-- The query window moves with the result window; the key and value windows follow its head and stay at row 0. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 63 ∧ win0_3.index t (1 : Fin 3) ≤ 1 ∧ win0_3.index t (2 : Fin 3) = 0 :=
  (by decide +kernel : ∀ t : Fin grid0.N, _)

/-- Every (head, half) is some point's result block. -/
theorem idx_onto : ∀ (g : Fin 64) (s : Fin 2), ∃ t : Fin cfg0.N, win0_3.index t = ![g.val, s.val, 0] :=
  (by decide +kernel : ∀ (g : Fin 64) (s : Fin 2), ∃ t : Fin grid0.N, win0_3.index t = ![g.val, s.val, 0])

/-! ## What a point writes back, and the array after the run -/

/-- WHAT POINT t WRITES BACK is block t of `headAttn` of the flattened arrays as the region finds them. -/
theorem flushed_eq (c : Dev nD) (t : Fin cfg0.N) :
    (dats m 0 c).flushed 3 t
      = ((cfg0.win 3).blk t).view.read (Elt Ideal) (headAttn (V m c main_v0) (V m c main_v1) (V m c main_v2)) := by
  show (cfg0.win 3).cut (grid0.coords t) ((dats m 0 c).after 3 t) = _
  rw [after0_3]
  unfold out0_3
  rw [View.canon_unit_zero offset_zero]
  simp only [View.ld_unit_zero (S := S1x1024x64) offset_zero, View.ld_unit_zero (S := S1x2048x64) offset_zero]
  obtain ⟨e00, e01, e02, e10, e11, e12, e20, e21, e22, b0, b1, b2⟩ := idx_facts t
  funext j
  show k0_pay1 (F := Ideal) (iblk m c 0 t) (iblk m c 1 t) (iblk m c 2 t) j
      = headAttn (V m c main_v0) (V m c main_v1) (V m c main_v2) (((cfg0.win 3).blk t).view.emb j)
  have hj0 : (j 0).val < 1 := (j 0).isLt
  refine stored_eq_headAttn (V m c main_v0) (V m c main_v1) (V m c main_v2) (iblk m c 0 t) (iblk m c 1 t) (iblk m c 2 t) j
    (((cfg0.win 3).blk t).view.emb j) ?_ ?_ ?_
  · intro e
    show V m c main_v0 (((cfg0.win 0).blk t).view.emb (ix3 (0 : Fin 1) (j 1) e))
        = V m c main_v0 (ix3 ((((cfg0.win 3).blk t).view.emb j) 0) ((((cfg0.win 3).blk t).view.emb j) 1) e)
    refine congrArg (V m c main_v0) ?_
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 1024 + 1 * (j 1).val = win0_3.index t (1 : Fin 3) * 1024 + 1 * (j 1).val; omega
    | ⟨2, _⟩ => show win0_0.index t (2 : Fin 3) * 64 + 1 * e.val = e.val; omega
  · intro k e
    show V m c main_v1 (((cfg0.win 1).blk t).view.emb (ix3 (0 : Fin 1) k e))
        = V m c main_v1 (ix3 ((((cfg0.win 3).blk t).view.emb j) 0) k e)
    refine congrArg (V m c main_v1) ?_
    funext a; apply Fin.ext
    match a with
    | ⟨0, _⟩ => show win0_1.index t (0 : Fin 3) * 1 + 1 * 0 = win0_3.index t (0 : Fin 3) * 1 + 1 * (j 0).val; omega
    | ⟨1, _⟩ => show win0_1.index t (1 : Fin 3) * 2048 + 1 * k.val = k.val; omega
    | ⟨2, _⟩ => show win0_1.index t (2 : Fin 3) * 64 + 1 * e.val = e.val; omega
  · intro k
    show V m c main_v2 (((cfg0.win 2).blk t).view.emb (ix3 (0 : Fin 1) k (j 2)))
        = V m c main_v2 (ix3 ((((cfg0.win 3).blk t).view.emb j) 0) k ((((cfg0.win 3).blk t).view.emb j) 2))
    refine congrArg (V m c main_v2) ?_
    funext a; apply Fin.ext
    match a with
    | ⟨0, _⟩ => show win0_2.index t (0 : Fin 3) * 1 + 1 * 0 = win0_3.index t (0 : Fin 3) * 1 + 1 * (j 0).val; omega
    | ⟨1, _⟩ => show win0_2.index t (1 : Fin 3) * 2048 + 1 * k.val = k.val; omega
    | ⟨2, _⟩ => show win0_2.index t (2 : Fin 3) * 64 + 1 * (j 2).val = win0_3.index t (2 : Fin 3) * 64 + 1 * (j 2).val; omega

/-- An index of the result array is in point t's block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- Every index of the result array lies in some point's block: head `i 0`, half `i 1 / 1024`. -/
theorem covered (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE RESULT ARRAY after the run is `headAttn` of the flattened arrays as the region finds them. -/
theorem final (c : Dev nD) :
    (dats m 0 c).arrAt 3 cfg0.N = headAttn (V m c main_v0) (V m c main_v1) (V m c main_v2) :=
  (dats m 0 c).arrAt_eq_of_cover 3 (headAttn (V m c main_v0) (V m c main_v1) (V m c main_v2))
    (fun t _ => flushed_eq m c t) covered

end Cert.KernelIdeal.ArrayValue

end
-- ==== Proof.KernelResult.lean ====
/-
  The kernel program's result, through its two reshapes, and its run.

  Before the kernel the program flattens each argument [4, 16, 2048, 64] to [64, 2048, 64]; after it, it unflattens the
  kernel's [64, 2048, 64] result. A reshape keeps every element's row-major position, and the row-major position of
  (b, h, p, e) among [4, 16, 2048, 64] is that of (16 b + h, p, e) among [64, 2048, 64]: head `16 b + h` of the flattened
  arrays is head h of batch b. The kernel's result array is `headAttn` of the flattened arguments (Proof/ArrayValue.lean),
  whose entry (16 b + h, p, d) reads only rows of head `16 b + h`: so, unflattened, the program's result is
  Proof/AttentionSpec.lean's `attnScaledQuery` of the three arguments, and the arguments end as launched.
-/
import proofs.«417406_j39676907882670_3_alg».proof.Proof.ArrayValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Attention Cert.KernelIdeal.BlockValue

variable (m : (ℓ : Loc nD τ sig) → Buf (Elt Ideal) ℓ) (ρ : Dev nD → PrngReg)

/-! ## The two reshapes at an index -/

/-- Flattened, entry (16 b + h, p, e) is the argument's entry (b, h, p, e). -/
theorem flatten_apply (x : S4x16x2048x64.Idx → EReal) (hc : S4x16x2048x64.ShapeCasts S64x2048x64)
    (b : Fin 4) (h : Fin 16) (p : Fin 2048) (e : Fin 64) :
    shapeCast S64x2048x64 x hc (ix3 (⟨b.val * 16 + h.val, by have := b.isLt; have := h.isLt; omega⟩ : Fin 64) p e) = x (ix4 b h p e) :=
  shapeCast_apply x hc _ _ (by
    rw [Shape.rowMajor_val_four, Shape.rowMajor_val_three]
    rfl)

/-- Unflattened, entry (b, h, p, e) is the flat array's entry (16 b + h, p, e). -/
theorem unflatten_apply (x : S64x2048x64.Idx → EReal) (hc : S64x2048x64.ShapeCasts S4x16x2048x64)
    (b : Fin 4) (h : Fin 16) (p : Fin 2048) (e : Fin 64) :
    shapeCast S4x16x2048x64 x hc (ix4 b h p e) = x (ix3 (⟨b.val * 16 + h.val, by have := b.isLt; have := h.isLt; omega⟩ : Fin 64) p e) :=
  shapeCast_apply x hc _ _ (by
    rw [Shape.rowMajor_val_three, Shape.rowMajor_val_four]
    rfl)

/-- Attention over the flattened arguments, at head `16 b + h`, is attention over the arguments at (b, h). -/
theorem headAttn_flatten (x y z : S4x16x2048x64.Idx → EReal) (hc : S4x16x2048x64.ShapeCasts S64x2048x64)
    (b : Fin 4) (h : Fin 16) (p : Fin 2048) (d : Fin 64) :
    headAttn (shapeCast S64x2048x64 x hc) (shapeCast S64x2048x64 y hc) (shapeCast S64x2048x64 z hc)
        (ix3 (⟨b.val * 16 + h.val, by have := b.isLt; have := h.isLt; omega⟩ : Fin 64) p d)
      = attnScaledQuery (Ideal.ofBits .f32 0x3E000000#32) x y z (ix4 b h p d) :=
  congr
    (congrArg normalizeLast
      (congr
        (congrArg (scoreScaledQuery (Ideal.ofBits .f32 0x3E000000#32)) (funext fun e => flatten_apply x hc b h p e))
        (funext fun k => funext fun e => flatten_apply y hc b h k e)))
    (funext fun k => flatten_apply z hc b h k d)

/-! ## The flattened arrays the region finds -/

theorem V_main_v0 (c : Dev nD) :
    (V m c main_v0 : S64x2048x64.Idx → EReal)
      = shapeCast S64x2048x64 (m ((c.tc : Thread nD τ).loc main_arg0)) shapeCasts_S4x16x2048x64_S64x2048x64 := by
  show StableHlo.after hostOps0 (fun b => m (c, b)) (Proc.devRef .tc main_v0) = _
  after_results
  rfl

theorem V_main_v1 (c : Dev nD) :
    (V m c main_v1 : S64x2048x64.Idx → EReal)
      = shapeCast S64x2048x64 (m ((c.tc : Thread nD τ).loc main_arg1)) shapeCasts_S4x16x2048x64_S64x2048x64 := by
  show StableHlo.after hostOps0 (fun b => m (c, b)) (Proc.devRef .tc main_v1) = _
  after_results
  rfl

theorem V_main_v2 (c : Dev nD) :
    (V m c main_v2 : S64x2048x64.Idx → EReal)
      = shapeCast S64x2048x64 (m ((c.tc : Thread nD τ).loc main_arg2)) shapeCasts_S4x16x2048x64_S64x2048x64 := by
  show StableHlo.after hostOps0 (fun b => m (c, b)) (Proc.devRef .tc main_v2) = _
  after_results
  rfl

/-! ## The program's result -/

/-- What the line after the region leaves in the program's result: attention of the three arguments. -/
theorem result_eq (c : Dev nD) :
    Pipeline.afterTail₀ cfgs (dats m) 0 (V0 m) [hostOps1] c main_v4
      = attnScaledQuery (Ideal.ofBits .f32 0x3E000000#32) (m ((c.tc : Thread nD τ).loc main_arg0))
          (m ((c.tc : Thread nD τ).loc main_arg1)) (m ((c.tc : Thread nD τ).loc main_arg2)) := by
  unfold Pipeline.afterTail₀
  show StableHlo.after hostOps1 _ (Proc.devRef .tc main_v4) = _
  after_results
  show shapeCast S4x16x2048x64
      (Pipeline.withArrays spec0 c (V0 m c) (fun w => (dats m 0 c).arrAt w cfg0.N) (Proc.devRef .tc main_v3))
      shapeCasts_S64x2048x64_S4x16x2048x64 = _
  have hw : Pipeline.withArrays spec0 c (V0 m c) (fun w => (dats m 0 c).arrAt w cfg0.N) (Proc.devRef .tc main_v3)
      = headAttn (V m c main_v0) (V m c main_v1) (V m c main_v2) :=
    (Pipeline.withArrays_arr spec0 launch0.win.arr_inj c _ _ 3).trans (final m c)
  refine (congrArg (fun a => shapeCast S4x16x2048x64 a shapeCasts_S64x2048x64_S4x16x2048x64) hw).trans ?_
  funext i
  obtain ⟨b, h, p, d, rfl⟩ : ∃ (b : Fin 4) (h : Fin 16) (p : Fin 2048) (d : Fin 64), i = ix4 b h p d :=
    ⟨i 0, i 1, i 2, i 3, eq_ix4 i⟩
  refine (unflatten_apply _ shapeCasts_S64x2048x64_S4x16x2048x64 b h p d).trans ?_
  rw [V_main_v0, V_main_v1, V_main_v2]
  exact headAttn_flatten _ _ _ shapeCasts_S4x16x2048x64_S64x2048x64 b h p d

/-! ## The run, read -/

/-- Every weakly fair execution of the kernel program terminates with its result at attention of the three arguments
    (the query scaled first, the normalisation last) and the arguments as launched. -/
theorem run : θ_run defs (onTc (τ := τ) (main (F := Ideal))) ⟨m, fun _ => 0, ρ⟩ fun r => ∀ c : Dev nD,
      r.2.mem ((c.tc : Thread nD τ).loc main_v4)
        = attnScaledQuery (Ideal.ofBits .f32 0x3E000000#32) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.ArrayValue

end
-- ==== Proof.RefAttention.lean ====
/-
  The reference program's result is attention with the scores divided and the normalisation first.

  The reference computes, stage by stage: the contraction of the queries with the keys over the feature axis; its
  quotient by the divisor literal (the scores); the largest score of each row, taken from -∞ upward; the exponential of
  each score less its row's largest (the weights); the sum of each row's weights, taken from zero; each weight divided
  by its row's sum; and the contraction of those quotients with the values over the key positions. Read at one entry
  (b, h, p, d) these are, in order, the specification's `scoreDivided`, `rowMax`, `weight`, the weights' sum and
  `normalizeFirst`. Nothing here depends on the entries being finite: every step is the same term on both sides.
-/
import proofs.«417406_j39676907882670_3_alg».proof.Proof.Gen.ReferenceIdeal.Read
import proofs.«417406_j39676907882670_3_alg».proof.Proof.AttentionSpec
import proofs.«417406_j39676907882670_3_alg».proof.Proof.AttentionConsts

noncomputable section

namespace Cert.ReferenceIdeal.RefValue

open Cert.ReferenceIdeal Cert.ReferenceIdeal.Gen Cert.ReferenceIdeal.Read Idealize.ShloMosaic Idealize.ShloMosaic.ValueIdx

section Stages

variable (x0 x1 : FVec Ideal S4x16x2048x64 .f32) (b : Fin 4) (h : Fin 16) (p : Fin 2048)

/-- The specification's score row of query position `p` of head `h` of batch `b`: one score per key position. -/
def scoreRow : Fin 2048 → EReal :=
  Cert.Attention.scoreDivided (Ideal.ofBits .f32 0x41000000#32) (fun e : Fin 64 => x0 (ix4 b h p e))
    (fun (k : Fin 2048) (e : Fin 64) => x1 (ix4 b h k e))

/-- The divided contraction at (b, h, p, k) is the score of key position `k`. -/
theorem scores_at (k : Fin 2048) :
    val_main_v2 (F := Ideal) x0 x1 (ix4 b h p k) = scoreRow x0 x1 b h p k := by
  rw [val_main_v2_apply, val_main_v0_apply, val_main_v1_apply, val_main_cst_apply]
  simp only [Ideal.hostDivf_def, Ideal.ofBits_def]
  unfold scoreRow Cert.Attention.scoreDivided
  refine congrArg (fun t => Ideal.div t _) (Finset.sum_congr rfl fun e _ => ?_)
  have el : lidx_main_v0 (ix4 b h p k) e = ix4 b h p e :=
    funext fun a => Fin.ext (by match a with | ⟨0, _⟩ => rfl | ⟨1, _⟩ => rfl | ⟨2, _⟩ => rfl | ⟨3, _⟩ => rfl)
  have er : ridx_main_v0 (ix4 b h p k) e = ix4 b h k e :=
    funext fun a => Fin.ext (by match a with | ⟨0, _⟩ => rfl | ⟨1, _⟩ => rfl | ⟨2, _⟩ => rfl | ⟨3, _⟩ => rfl)
  rw [el, er]

/-- Dropping the last axis of [4, 16, 2048, 2048] leaves [4, 16, 2048]. -/
theorem reduces_last : S4x16x2048x2048.Reduces [3] S4x16x2048 := by decide

/-- The row index (b, h, p) with key position `k` put back on the last axis is (b, h, p, k). -/
theorem lift_last (k : Fin 2048) : reduces_last.lift (ix3 b h p) k = ix4 b h p k :=
  funext fun a => Fin.ext (by match a with | ⟨0, _⟩ => rfl | ⟨1, _⟩ => rfl | ⟨2, _⟩ => rfl | ⟨3, _⟩ => rfl)

/-- The maximum-reduction over the key positions, from -∞, is the row's largest score. -/
theorem rowMax_at :
    val_main_v3 (F := Ideal) x0 x1 (ix3 b h p) = Cert.Attention.rowMax (scoreRow x0 x1 b h p) := by
  unfold val_main_v3
  rw [Host.reduce_eq_fold_single FloatOps.maximumf _ _ reducesTo_S4x16x2048x2048_S4x16x2048_d3 reduces_last h_S_]
  have hinit : (val_main_cst_0 (F := Ideal)) (Shape.Idx.first h_S_) = (⊥ : EReal) := by
    rw [val_main_cst_0_apply, Ideal.ofBits_def, Cert.Attention.ofBits_neg_inf]
  have hf : (val_main_v2 (F := Ideal) x0 x1 ∘ reduces_last.lift (ix3 b h p)) = fun k : Fin 2048 => scoreRow x0 x1 b h p k :=
    funext fun k => (congrArg (val_main_v2 (F := Ideal) x0 x1) (lift_last b h p k)).trans (scores_at x0 x1 b h p k)
  rw [hinit]
  unfold Cert.Attention.rowMax
  exact congrArg (fun f => Finset.fold max (⊥ : EReal) f (Finset.univ : Finset (Fin 2048))) hf

/-- The elementwise maximum with the -∞ array changes nothing: still the row's largest score. -/
theorem rowMax_guard_at :
    val_main_v5 (F := Ideal) x0 x1 (ix3 b h p) = Cert.Attention.rowMax (scoreRow x0 x1 b h p) := by
  rw [val_main_v5_apply, val_main_v4_apply, val_main_cst_1_apply, rowMax_at, Ideal.maximumf_def, Ideal.ofBits_def,
    Cert.Attention.ofBits_neg_inf]
  exact max_bot_left _

/-- Broadcast back along the key positions, every entry of row (b, h, p) holds the row's largest score. -/
theorem rowMax_bcast_at (k : Fin 2048) :
    val_main_v7 (F := Ideal) x0 x1 (ix4 b h p k) = Cert.Attention.rowMax (scoreRow x0 x1 b h p) := by
  rw [val_main_v7_apply, val_main_v6_apply]
  have e : idx_main_v6 (idx_main_v7 (ix4 b h p k)) = ix3 b h p :=
    funext fun a => Fin.ext (by match a with | ⟨0, _⟩ => rfl | ⟨1, _⟩ => rfl | ⟨2, _⟩ => rfl)
  rw [e, rowMax_guard_at]

/-- The exponential of a score less its row's largest is the weight of its key position. -/
theorem weight_at (k : Fin 2048) :
    val_main_v9 (F := Ideal) x0 x1 (ix4 b h p k) = Cert.Attention.weight (scoreRow x0 x1 b h p) k := by
  rw [val_main_v9_apply, val_main_v8_apply, scores_at, rowMax_bcast_at, Ideal.hostUnary_exp_def, Ideal.subf_def]
  rfl

/-- The sum-reduction over the key positions, from zero, is the sum of the row's weights. -/
theorem weightSum_at :
    val_main_v10 (F := Ideal) x0 x1 (ix3 b h p) = ∑ k : Fin 2048, Cert.Attention.weight (scoreRow x0 x1 b h p) k := by
  rw [val_main_v10_apply, val_main_cst_2_apply, Ideal.ofBits_def, Ideal.ofBits_zero_f32, zero_add]
  refine Finset.sum_congr rfl fun k _ => ?_
  have e : idx_main_v10 (ix3 b h p) k = ix4 b h p k :=
    funext fun a => Fin.ext (by match a with | ⟨0, _⟩ => rfl | ⟨1, _⟩ => rfl | ⟨2, _⟩ => rfl | ⟨3, _⟩ => rfl)
  rw [e, weight_at]

/-- Broadcast back along the key positions, every entry of row (b, h, p) holds the sum of the row's weights. -/
theorem weightSum_bcast_at (k : Fin 2048) :
    val_main_v12 (F := Ideal) x0 x1 (ix4 b h p k) = ∑ k' : Fin 2048, Cert.Attention.weight (scoreRow x0 x1 b h p) k' := by
  rw [val_main_v12_apply, val_main_v11_apply]
  have e : idx_main_v11 (idx_main_v12 (ix4 b h p k)) = ix3 b h p :=
    funext fun a => Fin.ext (by match a with | ⟨0, _⟩ => rfl | ⟨1, _⟩ => rfl | ⟨2, _⟩ => rfl)
  rw [e, weightSum_at]

/-- Each weight divided by the sum of its row's weights. -/
theorem normalized_at (k : Fin 2048) :
    val_main_v13 (F := Ideal) x0 x1 (ix4 b h p k)
      = Ideal.div (Cert.Attention.weight (scoreRow x0 x1 b h p) k) (∑ k' : Fin 2048, Cert.Attention.weight (scoreRow x0 x1 b h p) k') := by
  rw [val_main_v13_apply, weight_at, weightSum_bcast_at, Ideal.hostDivf_def]

/-- Entry (b, h, p, d) of the last contraction: the normalised weights of row (b, h, p) against column `d` of the values. -/
theorem entry_at (x2 : FVec Ideal S4x16x2048x64 .f32) (d : Fin 64) :
    val_main_v14 (F := Ideal) x0 x1 x2 (ix4 b h p d)
      = Cert.Attention.normalizeFirst (scoreRow x0 x1 b h p) (fun k : Fin 2048 => x2 (ix4 b h k d)) := by
  rw [val_main_v14_apply]
  unfold Cert.Attention.normalizeFirst
  refine Finset.sum_congr rfl fun k _ => ?_
  have el : lidx_main_v14 (ix4 b h p d) k = ix4 b h p k :=
    funext fun a => Fin.ext (by match a with | ⟨0, _⟩ => rfl | ⟨1, _⟩ => rfl | ⟨2, _⟩ => rfl | ⟨3, _⟩ => rfl)
  have er : ridx_main_v14 (ix4 b h p d) k = ix4 b h k d :=
    funext fun a => Fin.ext (by match a with | ⟨0, _⟩ => rfl | ⟨1, _⟩ => rfl | ⟨2, _⟩ => rfl | ⟨3, _⟩ => rfl)
  rw [el, er, normalized_at]

end Stages

/-- The reference's last stage, as a function of the three argument arrays, is `attnDivided` at its divisor literal. -/
theorem val_main_v14_eq_attnDivided (x0 x1 x2 : FVec Ideal S4x16x2048x64 .f32) :
    val_main_v14 (F := Ideal) x0 x1 x2
      = Cert.Attention.attnDivided (Ideal.ofBits .f32 0x41000000#32) x0 x1 x2 := by
  funext i
  obtain ⟨b, h, p, d, rfl⟩ : ∃ (b : Fin 4) (h : Fin 16) (p : Fin 2048) (d : Fin 64), i = ix4 b h p d :=
    ⟨i 0, i 1, i 2, i 3, eq_ix4 i⟩
  rw [entry_at]
  rfl

end Cert.ReferenceIdeal.RefValue

end
-- ==== Proof.AttentionLaw.lean ====
/-
  The two arrangements of attention (Proof/AttentionSpec.lean) agree on real entries.

  On real entries every quantity that occurs is a real number read in the extended reals, so the proof carries
  each expression to that form and ends in an identity of real finite sums.
  • The two scores are the same real number `(∑ e, q e · K k e) / 8`: multiplication distributes over the sum.
  • The row maximum over a nonempty finite index set is attained, hence is one of the (real) scores.
  • Each weight is `exp` of a real number, hence a positive real; their sum `l` over a nonempty index set is a
    positive real, in particular not zero, so dividing by `l` is multiplying by the real number `1 / l`.
  • What is left is `(∑ k, w k · v k) · (1 / l) = ∑ k, (w k · (1 / l)) · v k`.
-/
import proofs.«417406_j39676907882670_3_alg».proof.Proof.AttentionSpec
import proofs.«417406_j39676907882670_3_alg».proof.Proof.AttentionConsts

noncomputable section

namespace Cert.Attention

open Idealize.ShloMosaic Idealize.ShloMosaic.ValueIdx

variable {ι κ : Type} [Fintype ι] [Fintype κ]

/-- A finite sum of real numbers, read in the extended reals term by term, is the real sum read there. -/
theorem sum_coe_real {α : Type} (s : Finset α) (f : α → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The score with the query scaled by `1/8`, on real entries: the real contraction divided by `8`. -/
theorem scoreScaledQuery_coe (q' : ι → ℝ) (K' : κ → ι → ℝ) (k : κ) :
    scoreScaledQuery ((1 / 8 : ℝ) : EReal) (fun e => ((q' e : ℝ) : EReal)) (fun k e => ((K' k e : ℝ) : EReal)) k
      = (((∑ e, q' e * K' k e) / 8 : ℝ) : EReal) := by
  unfold scoreScaledQuery
  simp only [← EReal.coe_mul, sum_coe_real]
  congr 1
  rw [Finset.sum_div]
  exact Finset.sum_congr rfl (fun e _ => by ring)

/-- The score divided by `8`, on real entries: the same real number. -/
theorem scoreDivided_coe (q' : ι → ℝ) (K' : κ → ι → ℝ) (k : κ) :
    scoreDivided ((8 : ℝ) : EReal) (fun e => ((q' e : ℝ) : EReal)) (fun k e => ((K' k e : ℝ) : EReal)) k
      = (((∑ e, q' e * K' k e) / 8 : ℝ) : EReal) := by
  unfold scoreDivided
  rw [Ideal.div_coe (by norm_num : (8 : ℝ) ≠ 0)]
  simp only [← EReal.coe_mul, sum_coe_real]
  congr 1
  ring

/-- The largest of finitely many real scores, over a nonempty index set, is a real number (one of them). -/
theorem rowMax_coe [Nonempty κ] (s : κ → ℝ) :
    ∃ m : ℝ, rowMax (fun k => ((s k : ℝ) : EReal)) = (m : EReal) := by
  obtain ⟨k₀, -, hk₀⟩ := Finset.exists_mem_eq_sup (Finset.univ : Finset κ) Finset.univ_nonempty
    (fun k => ((s k : ℝ) : EReal))
  exact ⟨s k₀, hk₀⟩

/-- The two normalisations agree on a row of real scores and real values: the sum of the weights is a positive
    real number, so both sides are the real number `∑ k, w k · (1 / l) · v k`. -/
theorem normalizeLast_eq_normalizeFirst_coe [Nonempty κ] (s v' : κ → ℝ) :
    normalizeLast (fun k => ((s k : ℝ) : EReal)) (fun k => ((v' k : ℝ) : EReal))
      = normalizeFirst (fun k => ((s k : ℝ) : EReal)) (fun k => ((v' k : ℝ) : EReal)) := by
  obtain ⟨m, hm⟩ := rowMax_coe s
  have hw : ∀ k, weight (fun k => ((s k : ℝ) : EReal)) k = ((Real.exp (s k - m) : ℝ) : EReal) := by
    intro k
    unfold weight
    rw [hm, ← EReal.coe_sub, Ideal.exp_coe]
  have hl : (0 : ℝ) < ∑ k, Real.exp (s k - m) :=
    Finset.sum_pos (fun k _ => Real.exp_pos _) Finset.univ_nonempty
  unfold normalizeLast normalizeFirst
  simp only [hw, ← EReal.coe_mul, sum_coe_real, Ideal.div_coe hl.ne']
  congr 1
  rw [Finset.sum_mul]
  exact Finset.sum_congr rfl (fun k _ => by ring)

/-- One query row: scaling the query by `1/8` and normalising last is dividing the scores by `8` and normalising
    first, when every entry is a real number. -/
theorem normalizeLast_scaled_eq_normalizeFirst_divided [Nonempty κ]
    (q : ι → EReal) (K : κ → ι → EReal) (v : κ → EReal)
    (hq : ∀ e, ∃ r : ℝ, q e = (r : EReal)) (hK : ∀ k e, ∃ r : ℝ, K k e = (r : EReal))
    (hv : ∀ k, ∃ r : ℝ, v k = (r : EReal)) :
    normalizeLast (scoreScaledQuery ((1 / 8 : ℝ) : EReal) q K) v
      = normalizeFirst (scoreDivided ((8 : ℝ) : EReal) q K) v := by
  choose q' hq' using hq
  choose K' hK' using hK
  choose v' hv' using hv
  obtain rfl : q = fun e => ((q' e : ℝ) : EReal) := funext hq'
  obtain rfl : K = fun k e => ((K' k e : ℝ) : EReal) := funext fun k => funext (hK' k)
  obtain rfl : v = fun k => ((v' k : ℝ) : EReal) := funext hv'
  have h1 : scoreScaledQuery ((1 / 8 : ℝ) : EReal) (fun e => ((q' e : ℝ) : EReal))
      (fun k e => ((K' k e : ℝ) : EReal)) = fun k => (((∑ e, q' e * K' k e) / 8 : ℝ) : EReal) :=
    funext (scoreScaledQuery_coe q' K')
  have h2 : scoreDivided ((8 : ℝ) : EReal) (fun e => ((q' e : ℝ) : EReal))
      (fun k e => ((K' k e : ℝ) : EReal)) = fun k => (((∑ e, q' e * K' k e) / 8 : ℝ) : EReal) :=
    funext (scoreDivided_coe q' K')
  rw [h1, h2]
  exact normalizeLast_eq_normalizeFirst_coe _ _

/-- The whole arrays: the two attention functions agree on arrays of real numbers, at the two programs' literals. -/
theorem attnScaledQuery_eq_attnDivided (x y z : Sbhpf.Idx → EReal)
    (hx : ∀ i, ∃ r : ℝ, x i = (r : EReal)) (hy : ∀ i, ∃ r : ℝ, y i = (r : EReal))
    (hz : ∀ i, ∃ r : ℝ, z i = (r : EReal)) :
    attnScaledQuery (Ideal.ofBits .f32 0x3E000000#32) x y z
      = attnDivided (Ideal.ofBits .f32 0x41000000#32) x y z := by
  funext i
  rw [ofBits_eighth, ofBits_eight]
  unfold attnScaledQuery attnDivided
  exact normalizeLast_scaled_eq_normalizeFirst_divided _ _ _ (fun _ => hx _) (fun _ _ => hy _) (fun _ => hz _)

end Cert.Attention

end
-- ==== Proof.FiniteInputs.lean ====
/-
  The precondition read back: where `finite_inputs` is all ones, every entry of the three arrays is a real number.

  The printed predicate is, for each array `a`, the conjunction over every index `i` of `|a i| < +∞` (a reduction by
  `and` over all four axes, from `1`), and the three answers joined by `and`. Read at the extended reals, `|a|` is
  `max a (-a)` and the comparison is the order's `<`. So the predicate being one gives `max (a i) (-(a i)) < ⊤` at
  every index of every array; at `⊥` and at `⊤` that maximum is `⊤`, hence the entry is neither: it is a real number.
-/
import proofs.«417406_j39676907882670_3_alg».proof.Pre_finite_inputs
import proofs.«417406_j39676907882670_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

/-- A shape of rank zero has exactly one index. -/
instance subsingleton_idx_S_ : Subsingleton S_.Idx := ⟨fun _ _ => funext fun d => d.elim0⟩

/-- The `f32` pattern of `+∞` denotes the top of the extended reals. -/
theorem ofBits_pos_inf : Ideal.ofBits .f32 0x7F800000#32 = (⊤ : EReal) := by
  simp [Ideal.ofBits, Ideal.ieee]

/-- An extended real whose absolute value `max a (-a)` lies below `⊤` is a real number: at `⊥` and at `⊤` the
    maximum is `⊤`. -/
theorem exists_real_of_abs_lt_top (a : EReal) (h : max a (-a) < ⊤) : ∃ r : ℝ, a = (r : EReal) := by
  induction a using EReal.rec with
  | bot => simp at h
  | top => simp at h
  | coe r => exact ⟨r, rfl⟩

/-- One element: the comparison `|a| < +∞` answering one makes `a` a real number. -/
theorem exists_real_of_cmp_abs_inf (a : EReal)
    (h : Ideal.cmp .olt (max a (-a)) (Ideal.ofBits .f32 0x7F800000#32) = 1#1) : ∃ r : ℝ, a = (r : EReal) := by
  rw [ofBits_pos_inf] at h
  by_cases hlt : max a (-a) < ⊤
  · exact exists_real_of_abs_lt_top a hlt
  · simp [Ideal.cmp, hlt] at h

/-- One array: where the conjunction over all indices of `|a i| < +∞` is one, every entry of `a` is a real number. -/
theorem real_of_all_abs_lt_inf (a : FVec Ideal S4x16x2048x64 .f32)
    (hb : S_.BroadcastsInDim S4x16x2048x64 (![] : Fin 0 → Fin S4x16x2048x64.rank))
    (hr : S4x16x2048x64.ReducesTo [0, 1, 2, 3] S_) (hu : 0 < S_.numel)
    (h : Host.reduce IntOp.andi
        (cmpf .olt (Host.absf a) (broadcastInDim S4x16x2048x64 ![] hb (constant S_ .f32 0x7F800000#32)))
        (constantI S_ 1 1#1) hr hu ValueIdx.ix0 = 1#1) :
    ∀ i, ∃ r : ℝ, a i = (r : EReal) := by
  intro i
  have hi := Host.reduce_andi_all _ _ hr hu ValueIdx.ix0 h i
  exact exists_real_of_cmp_abs_inf (a i) hi

/-- Each of the three arrays holds only real numbers where the printed predicate answers one. -/
theorem real_of_finite_inputs [Cert.Pre_finite_inputs.Facts] (x y z : FVec Ideal S4x16x2048x64 .f32)
    (h : Cert.Pre_finite_inputs.fn (F := Ideal) x y z = fun _ => 1#1) :
    (∀ i, ∃ r : ℝ, x i = (r : EReal)) ∧ (∀ i, ∃ r : ℝ, y i = (r : EReal)) ∧ (∀ i, ∃ r : ℝ, z i = (r : EReal)) := by
  have h0 := congrFun h ValueIdx.ix0
  unfold Cert.Pre_finite_inputs.fn at h0
  dsimp only at h0
  obtain ⟨hxy, hz⟩ := IntOp.andi_eq_one.1 h0
  obtain ⟨hx, hy⟩ := IntOp.andi_eq_one.1 hxy
  exact ⟨real_of_all_abs_lt_inf x _ _ _ hx, real_of_all_abs_lt_inf y _ _ _ hy, real_of_all_abs_lt_inf z _ _ _ hz⟩

end Cert.Pre_finite_inputs.Finite

end
-- ==== Proof.lean ====
/- The proof of `Cert.Claim` (proofs.«417406_j39676907882670_3_alg».proof.Defs): a Pallas kernel for scaled dot-product attention over
   [4, 16, 2048, 64] queries, keys and values, against jnp's `softmax (Q Kᵀ / 8) V`, equal on the extended reals whenever
   the three inputs are finite.

   Both programs compute, for every batch b, head h, query position p and feature d, a softmax-weighted average of column d
   of the values: with scores `s k` of query row (b, h, p) against key row (b, h, k), weights `w k = exp (s k − max s)` and
   `l = ∑ k, w k`, the result is `∑ k, (w k / l) · v k`. They arrange it differently. The kernel scales the QUERY by the literal
   `0.125` before the contraction and divides by `l` ONCE, after the weighted sum; the reference divides the contraction by
   `8.0` and divides every weight by `l` before the weighted sum. (The kernel also flattens batch and head into 64 heads, works
   on blocks of 1024 query rows, and narrows its matrix operands to bf16 — a change of format, the identity on the extended
   reals.)

   • Proof/AttentionSpec.lean states the two arrangements once, apart from any program; Proof/AttentionConsts.lean reads the
     literals (`1/8`, `8`, `-∞`); Proof/AttentionLaw.lean proves the arrangements equal on REAL entries — the scores by
     distributivity, the normalisations because `l` is a positive real (every weight is positive), so dividing by it is
     multiplying by `1 / l`.
   • The kernel side: Proof/BlockProducts.lean and Proof/BlockRow.lean read what the body stores at one entry of its block;
     Proof/ArrayValue.lean goes from the 128 grid points' blocks to the whole result array; Proof/KernelResult.lean reads
     it through the two reshapes and states the kernel program's run.
   • The reference side: its run and its stages read at an index are generated (Proof/Gen/ReferenceIdeal/Run.lean, Read.lean);
     Proof/RefAttention.lean shows the last stage is the second arrangement (its maximum-reduction read by hand).
   • Proof/FiniteInputs.lean reads the precondition back: every entry of the three inputs is a real number.

   Finiteness is used, and needed: at an infinite score `s k − max s` can be `∞ − ∞`, and an infinite value entry breaks
   `(∑ w · v) / l = ∑ (w / l) · v`. The frames are the generated ones (the reference's is its generated run with the result
   dropped); the idealization rewrote nothing, so `preserves` is `True`. -/
import proofs.«417406_j39676907882670_3_alg».proof.Defs
import proofs.«417406_j39676907882670_3_alg».proof.Proof.Gen.Kernel
import proofs.«417406_j39676907882670_3_alg».proof.Proof.Gen.Kernel.Skeleton
import proofs.«417406_j39676907882670_3_alg».proof.Proof.Gen.Kernel.Launch
import proofs.«417406_j39676907882670_3_alg».proof.Proof.Gen.Kernel.Points
import proofs.«417406_j39676907882670_3_alg».proof.Proof.Gen.Kernel.Frame
import proofs.«417406_j39676907882670_3_alg».proof.Proof.Gen.KernelIdeal
import proofs.«417406_j39676907882670_3_alg».proof.Proof.Gen.KernelIdeal.Skeleton
import proofs.«417406_j39676907882670_3_alg».proof.Proof.Gen.KernelIdeal.Launch
import proofs.«417406_j39676907882670_3_alg».proof.Proof.Gen.KernelIdeal.Points
import proofs.«417406_j39676907882670_3_alg».proof.Proof.Gen.KernelIdeal.Frame
import proofs.«417406_j39676907882670_3_alg».proof.Proof.Gen.ReferenceIdeal
import proofs.«417406_j39676907882670_3_alg».proof.Proof.Gen.Pre_finite_inputs
import proofs.«417406_j39676907882670_3_alg».proof.Proof.Gen.ReferenceIdeal.Run
import proofs.«417406_j39676907882670_3_alg».proof.Proof.Gen.ReferenceIdeal.Read
import proofs.«417406_j39676907882670_3_alg».proof.Proof.KernelResult
import proofs.«417406_j39676907882670_3_alg».proof.Proof.RefAttention
import proofs.«417406_j39676907882670_3_alg».proof.Proof.AttentionLaw
import proofs.«417406_j39676907882670_3_alg».proof.Proof.FiniteInputs
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end with the same result: the kernel's is attention with the
    query scaled first and the normalisation last, the reference's attention with the scores divided and the normalisation
    first, and on real entries the two are one function. -/
theorem algebraic : Cert.algebraic_KernelIdeal_ReferenceIdeal := by
  intro m ρ m' ρ' hpre hagree
  refine ⟨fun c => Cert.Attention.attnScaledQuery (Ideal.ofBits .f32 0x3E000000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.val_main_v14_eq_attnDivided,
    (hagree c).1, (hagree c).2.1, (hagree c).2.2]
  obtain ⟨hx, hy, hz⟩ := Cert.Pre_finite_inputs.Finite.real_of_finite_inputs _ _ _ (hpre c)
  exact (Cert.Attention.attnScaledQuery_eq_attnDivided _ _ _ hx hy hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
